-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384x512 : Shape := ⟨2, ![16384, 512]⟩
abbrev S2048 : Shape := ⟨1, ![2048]⟩
abbrev S2048x2048 : Shape := ⟨2, ![2048, 2048]⟩
abbrev S512x2048 : Shape := ⟨2, ![512, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part2 {F : FTy → Type} [FloatOps F] (main_arg7 : FVec F S512x2048 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  main_v38

def fn_part1 {F : FTy → Type} [FloatOps F] (main_arg4 : FVec F S512x2048 .f32) (main_arg5 : FVec F S2048 .f32) (main_arg6 : FVec F S2048x2048 .f32) (main_arg7 : FVec F S512x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_v33

def fn {F : FTy → Type} [FloatOps F] (main_arg0 : FVec F S16384x2048 .f32) (main_arg1 : FVec F S16384x512 .f32) (main_arg2 : FVec F S2048 .f32) (main_arg3 : FVec F S2048x2048 .f32) (main_arg4 : FVec F S512x2048 .f32) (main_arg5 : FVec F S2048 .f32) (main_arg6 : FVec F S2048x2048 .f32) (main_arg7 : FVec F S512x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_v13 main_v16
-- ==== Kernel.lean ====
abbrev S16384x2048 : Shape := ⟨2, ![16384, 2048]⟩
abbrev S16384x512 : Shape := ⟨2, ![16384, 512]⟩
abbrev S2048 : Shape := ⟨1, ![2048]⟩
abbrev S2048x2048 : Shape := ⟨2, ![2048, 2048]⟩
abbrev S512x2048 : Shape := ⟨2, ![512, 2048]⟩
abbrev S_ : Shape := ⟨0, ![]⟩
abbrev S2048x1 : Shape := ⟨2, ![2048, 1]⟩
abbrev S512x512 : Shape := ⟨2, ![512, 512]⟩

abbrev nBuf : Space → Nat
  | .hbm => 26
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x512, .f32⟩
  | .hbm, ⟨2, _⟩ => ⟨S2048, .f32⟩
  | .hbm, ⟨3, _⟩ => ⟨S2048x2048, .f32⟩
  | .hbm, ⟨4, _⟩ => ⟨S512x2048, .f32⟩
  | .hbm, ⟨5, _⟩ => ⟨S2048, .f32⟩
  | .hbm, ⟨6, _⟩ => ⟨S2048x2048, .f32⟩
  | .hbm, ⟨7, _⟩ => ⟨S512x2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S2048, .i1⟩
  | .hbm, ⟨18, _⟩ => ⟨S2048, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .bf16⟩
  | .hbm, ⟨23, _⟩ => ⟨S512x2048, .f32⟩
  | .hbm, ⟨24, _⟩ => ⟨S512x2048, .bf16⟩
  | .hbm, ⟨25, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S2048x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S512x512_S512x512_0_0 : ∀ a, (![0, 0] : Fin 2 → Nat) a + S512x512.size a ≤ S512x512.size a
  h_S512x512 : 0 < S512x512.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S512x2048_S512x2048 : S512x2048.ShapeCasts S512x2048
  dot_S512x2048_S2048x2048_S512x2048_1_0_0_1_n_n_wf : DotDims.WF S512x2048 S2048x2048 S512x2048 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384x512 : Shape := ⟨2, ![16384, 512]⟩
abbrev S2048 : Shape := ⟨1, ![2048]⟩
abbrev S2048x2048 : Shape := ⟨2, ![2048, 2048]⟩
abbrev S512x2048 : Shape := ⟨2, ![512, 2048]⟩
abbrev S_ : Shape := ⟨0, ![]⟩
abbrev S2048x1 : Shape := ⟨2, ![2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .f32⟩
  | .hbm, ⟨2, _⟩ => ⟨S2048, .f32⟩
  | .hbm, ⟨3, _⟩ => ⟨S2048x2048, .f32⟩
  | .hbm, ⟨4, _⟩ => ⟨S512x2048, .f32⟩
  | .hbm, ⟨5, _⟩ => ⟨S2048, .f32⟩
  | .hbm, ⟨6, _⟩ => ⟨S2048x2048, .f32⟩
  | .hbm, ⟨7, _⟩ => ⟨S512x2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S2048, .i1⟩
  | .hbm, ⟨18, _⟩ => ⟨S2048, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S16384x2048, .f32⟩
  | .hbm, ⟨23, _⟩ => ⟨S512x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S_S16384x2048 : S_.BroadcastsInDim S16384x2048 (![] : Fin 0 → Fin S16384x2048.rank)
  dot_S16384x2048_S2048x2048_S16384x2048_1_0_0_1_n_n_wf : DotDims.WF S16384x2048 S2048x2048 S16384x2048 [1] [0] [0] [1] [] []
  dot_S16384x512_S512x2048_S16384x2048_1_0_0_1_n_n_wf : DotDims.WF S16384x512 S512x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.Spec.lean ====
/-
  The mathematics both programs compute, stated once, over the extended reals.

  For a batch row `b` and an edge `e`:
      out[b, e] = tanh (1/2 · min (10, max (-10,  Σ_k x[b, k] · M[k, e]  +  Σ_v llr[b, v] · S[v, e])))
  where `M` is the gated edge-to-edge weight matrix (2048 × 2048) and `S` the variable-to-edge skip matrix
  (512 × 2048). The three float literals are kept as their bit patterns: the same words stand on both sides and are
  never evaluated.

  Two forms are given: `oddLayer`, over the whole arrays, and `oddBlock`, over one block of 512 batch rows (the
  rows of `x` and `llr` that a grid point of the kernel sees, against the whole of `M` and `S`). `oddBlock_eq`
  says a block of rows of `oddLayer` is `oddBlock` of the same rows of the inputs.
-/
import Idealize.ShloMosaic.PureOps.Ideal
import Idealize.ShloMosaic.PureOps.Ideal.Laws
import Idealize.ShloMosaic.Lib.ValueIdx

noncomputable section

namespace Cert.OddLayer

open Idealize.ShloMosaic

/-- messages / output: batch × edges -/
abbrev SBE : Shape := ⟨2, ![16384, 2048]⟩
/-- channel LLRs: batch × variables -/
abbrev SBN : Shape := ⟨2, ![16384, 512]⟩
/-- edge-to-edge weights -/
abbrev SEE : Shape := ⟨2, ![2048, 2048]⟩
/-- variable-to-edge weights -/
abbrev SNE : Shape := ⟨2, ![512, 2048]⟩
/-- one block of 512 batch rows of messages / output -/
abbrev TBE : Shape := ⟨2, ![512, 2048]⟩
/-- one block of 512 batch rows of LLRs -/
abbrev TBN : Shape := ⟨2, ![512, 512]⟩

/-- The clamp to [-10, 10], the halving and the tanh applied to a pre-activation. -/
def squash (s : EReal) : EReal :=
  Ideal.tanh (Ideal.ofBits .f32 0x3F000000#32 * min (Ideal.ofBits .f32 0x41200000#32) (max (Ideal.ofBits .f32 0xC1200000#32) s))

/-! ## Whole arrays -/

/-- entry (row of `i`, `k`) of the message array -/
abbrev msgAt (i : SBE.Idx) (k : Fin 2048) : SBE.Idx := fun a => match a with
  | ⟨0, _⟩ => ⟨(i 0).val, (i 0).isLt⟩
  | ⟨1, _⟩ => ⟨k.val, k.isLt⟩
/-- entry (`k`, column of `i`) of the edge weights -/
abbrev maskAt (i : SBE.Idx) (k : Fin 2048) : SEE.Idx := fun a => match a with
  | ⟨0, _⟩ => ⟨k.val, k.isLt⟩
  | ⟨1, _⟩ => ⟨(i 1).val, (i 1).isLt⟩
/-- entry (row of `i`, `k`) of the LLR array -/
abbrev llrAt (i : SBE.Idx) (k : Fin 512) : SBN.Idx := fun a => match a with
  | ⟨0, _⟩ => ⟨(i 0).val, (i 0).isLt⟩
  | ⟨1, _⟩ => ⟨k.val, k.isLt⟩
/-- entry (`k`, column of `i`) of the skip weights -/
abbrev skipAt (i : SBE.Idx) (k : Fin 512) : SNE.Idx := fun a => match a with
  | ⟨0, _⟩ => ⟨k.val, k.isLt⟩
  | ⟨1, _⟩ => ⟨(i 1).val, (i 1).isLt⟩

/-- The layer's output as one function of the messages, the LLRs and the two weight matrices. -/
def oddLayer (x : SBE.Idx → EReal) (l : SBN.Idx → EReal) (M : SEE.Idx → EReal) (S : SNE.Idx → EReal) : SBE.Idx → EReal :=
  fun i => squash ((∑ k : Fin 2048, x (msgAt i k) * M (maskAt i k)) + ∑ k : Fin 512, l (llrAt i k) * S (skipAt i k))

/-! ## One block of 512 rows -/

abbrev bmsgAt (j : TBE.Idx) (k : Fin 2048) : TBE.Idx := fun a => match a with
  | ⟨0, _⟩ => ⟨(j 0).val, (j 0).isLt⟩
  | ⟨1, _⟩ => ⟨k.val, k.isLt⟩
abbrev bmaskAt (j : TBE.Idx) (k : Fin 2048) : SEE.Idx := fun a => match a with
  | ⟨0, _⟩ => ⟨k.val, k.isLt⟩
  | ⟨1, _⟩ => ⟨(j 1).val, (j 1).isLt⟩
abbrev bllrAt (j : TBE.Idx) (k : Fin 512) : TBN.Idx := fun a => match a with
  | ⟨0, _⟩ => ⟨(j 0).val, (j 0).isLt⟩
  | ⟨1, _⟩ => ⟨k.val, k.isLt⟩
abbrev bskipAt (j : TBE.Idx) (k : Fin 512) : SNE.Idx := fun a => match a with
  | ⟨0, _⟩ => ⟨k.val, k.isLt⟩
  | ⟨1, _⟩ => ⟨(j 1).val, (j 1).isLt⟩

/-- The same function on a block of 512 rows of the messages and of the LLRs, against the whole weight matrices. -/
def oddBlock (x : TBE.Idx → EReal) (l : TBN.Idx → EReal) (M : SEE.Idx → EReal) (S : SNE.Idx → EReal) : TBE.Idx → EReal :=
  fun j => squash ((∑ k : Fin 2048, x (bmsgAt j k) * M (bmaskAt j k)) + ∑ k : Fin 512, l (bllrAt j k) * S (bskipAt j k))

/-- A block of rows of the layer's output is the block function of what the block sees: if each factor the block
    function reads at entry `j` is the factor the layer function reads at array index `i` — the block's rows of the
    messages and LLRs are the array's rows at `i`'s row, the weights' columns at `j`'s column are those at `i`'s —,
    the two sums are term by term the same. -/
theorem oddBlock_eq (x : SBE.Idx → EReal) (l : SBN.Idx → EReal) (M : SEE.Idx → EReal) (S : SNE.Idx → EReal)
    (xb : TBE.Idx → EReal) (lb : TBN.Idx → EReal) (Mb : SEE.Idx → EReal) (Sb : SNE.Idx → EReal) (j : TBE.Idx) (i : SBE.Idx)
    (hx : ∀ k : Fin 2048, xb (bmsgAt j k) = x (msgAt i k))
    (hl : ∀ k : Fin 512, lb (bllrAt j k) = l (llrAt i k))
    (hM : ∀ k : Fin 2048, Mb (bmaskAt j k) = M (maskAt i k))
    (hS : ∀ k : Fin 512, Sb (bskipAt j k) = S (skipAt i k)) :
    oddBlock xb lb Mb Sb j = oddLayer x l M S i := by
  unfold oddBlock oddLayer
  congr 2
  · exact Finset.sum_congr rfl fun k _ => by rw [hx k, hM k]
  · exact Finset.sum_congr rfl fun k _ => by rw [hl k, hS k]

end Cert.OddLayer

end
-- ==== Proof.Payload.lean ====
/-
  The kernel body's arithmetic on one block, read at an index.

  The body loads a block of 512 rows of the messages and of the LLRs and the whole of the two weight matrices, forms
  the two matrix products into zero accumulators, adds them, clamps, halves and takes tanh. On the extended reals a
  change of float format is the identity and a product into the zero accumulator is the plain sum over the contracted
  axis, so the stored value at entry `j` of the block is `oddBlock` of the loaded values at `j`.
-/
import proofs.«428126_j66443144069556_3_alg».proof.Proof.Gen.KernelIdeal.Skeleton
import proofs.«428126_j66443144069556_3_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Cert.OddLayer

/-! ## The edge product: rows of the message block against the edge weights -/

theorem lhs_edge_0 (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem lhs_edge_1 (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
theorem rhs_edge_0 (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
theorem rhs_edge_1 (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- Entry `j` of the edge product into the zero accumulator: the sum over the 2048 source edges `k` of the message
    at (row of `j`, `k`) times the weight at (`k`, column of `j`). -/
theorem edge_product_apply (l : FVec Ideal S512x2048 .bf16) (r : FVec Ideal S2048x2048 .bf16) (j : S512x2048.Idx) :
    matmul dot_S512x2048_S2048x2048_S512x2048_1_0_0_1_n_n none l r (constant S512x2048 .f32 0x00000000#32) j
      = ∑ k : Fin 2048, l (bmsgAt j k) * r (bmaskAt j k) := by
  simp only [matmul]
  rw [Ideal.matmul_constant_zero_apply, ← Equiv.sum_comp (ValueIdx.contrEquiv1 dot_S512x2048_S2048x2048_S512x2048_1_0_0_1_n_n 2048 rfl rfl).symm]
  refine Finset.sum_congr rfl fun k _ => ?_
  have hk := ValueIdx.contrEquiv1_symm_val dot_S512x2048_S2048x2048_S512x2048_1_0_0_1_n_n 2048 rfl rfl k
  have el : dot_S512x2048_S2048x2048_S512x2048_1_0_0_1_n_n.lhsIdx j ((ValueIdx.contrEquiv1 dot_S512x2048_S2048x2048_S512x2048_1_0_0_1_n_n 2048 rfl rfl).symm k) = bmsgAt j k := funext fun a => Fin.ext (by
    match a with
    | ⟨0, _⟩ => exact lhs_edge_0 _ _
    | ⟨1, _⟩ => exact (lhs_edge_1 _ _).trans hk)
  have er : dot_S512x2048_S2048x2048_S512x2048_1_0_0_1_n_n.rhsIdx j ((ValueIdx.contrEquiv1 dot_S512x2048_S2048x2048_S512x2048_1_0_0_1_n_n 2048 rfl rfl).symm k) = bmaskAt j k := funext fun a => Fin.ext (by
    match a with
    | ⟨0, _⟩ => exact (rhs_edge_0 _ _).trans hk
    | ⟨1, _⟩ => exact rhs_edge_1 _ _)
  rw [el, er]

/-! ## The skip product: rows of the LLR block against the skip weights -/

theorem lhs_skip_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_skip_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_skip_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_skip_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- Entry `j` of the skip product into the zero accumulator: the sum over the 512 variables `v` of the LLR at
    (row of `j`, `v`) times the weight at (`v`, column of `j`). -/
theorem skip_product_apply (l : FVec Ideal S512x512 .bf16) (r : FVec Ideal S512x2048 .bf16) (j : S512x2048.Idx) :
    matmul dot_S512x512_S512x2048_S512x2048_1_0_0_1_n_n none l r (constant S512x2048 .f32 0x00000000#32) j
      = ∑ k : Fin 512, l (bllrAt j k) * r (bskipAt j k) := by
  simp only [matmul]
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx j ((ValueIdx.contrEquiv1 dot_S512x512_S512x2048_S512x2048_1_0_0_1_n_n 512 rfl rfl).symm k) = bllrAt j k := funext fun a => Fin.ext (by
    match a with
    | ⟨0, _⟩ => exact lhs_skip_0 _ _
    | ⟨1, _⟩ => exact (lhs_skip_1 _ _).trans hk)
  have er : dot_S512x512_S512x2048_S512x2048_1_0_0_1_n_n.rhsIdx j ((ValueIdx.contrEquiv1 dot_S512x512_S512x2048_S512x2048_1_0_0_1_n_n 512 rfl rfl).symm k) = bskipAt j k := funext fun a => Fin.ext (by
    match a with
    | ⟨0, _⟩ => exact (rhs_skip_0 _ _).trans hk
    | ⟨1, _⟩ => exact rhs_skip_1 _ _)
  rw [el, er]

/-! ## The stored value -/

/-- What the body stores, as a function of its four loads, is the block function. -/
theorem stored_eq (x0 : Vec Ideal S512x2048 .f32) (x1 : Vec Ideal S512x512 .f32) (x2 : Vec Ideal S2048x2048 .bf16) (x3 : Vec Ideal S512x2048 .bf16) :
    k0_pay1 (F := Ideal) x0 x1 x2 x3 = oddBlock x0 x1 x2 x3 := by
  funext j
  unfold k0_pay1
  show Ideal.tanh (Ideal.ofBits .f32 0x3F000000#32 * min (Ideal.ofBits .f32 0x41200000#32) (max (Ideal.ofBits .f32 0xC1200000#32)
    (matmul dot_S512x2048_S2048x2048_S512x2048_1_0_0_1_n_n none (truncf .bf16 x0 bitsLt_bf16_f32) (shapeCast S2048x2048 x2 shapeCasts_S2048x2048_S2048x2048) (constant S512x2048 .f32 0x00000000#32) j
      + matmul dot_S512x512_S512x2048_S512x2048_1_0_0_1_n_n none (truncf .bf16 x1 bitsLt_bf16_f32) (shapeCast S512x2048 x3 shapeCasts_S512x2048_S512x2048) (constant S512x2048 .f32 0x00000000#32) j))) = _
  rw [edge_product_apply, skip_product_apply]
  simp only [shapeCast_self]
  rfl

end Cert.KernelIdeal.Payload

end
-- ==== Proof.LayerValue.lean ====
/-
  The kernel's run, read as a value: the output array after the run is the layer function of the messages, the LLRs
  and the two weight arrays the region finds in HBM.

  Grid point `t` (of 32) sees rows [512·t, 512·t + 512) of the messages and of the LLRs and the whole of both weight
  matrices, and writes back the same rows of the output, all 2048 columns. What it writes back is the block function of
  what it sees (the body's stored value), which is that block of rows of the layer function of the whole arrays; and
  the 32 row blocks cover the output array, row `r` lying in block `r / 512`.
-/
import proofs.«428126_j66443144069556_3_alg».proof.Proof.Gen.KernelIdeal.Value
import proofs.«428126_j66443144069556_3_alg».proof.Proof.Payload

set_option maxRecDepth 16384

noncomputable section

namespace Cert.KernelIdeal.LayerValue

open Cert.KernelIdeal Cert.KernelIdeal.Gen Idealize.ShloMosaic Idealize.ShloMosaic.TcCoe Idealize.SL.Sem Cert.OddLayer
open Idealize.ShloMosaic.Pipeline (Dat)

variable (m : (ℓ : Loc nD τ sig) → Buf (Elt Ideal) ℓ) (ρ : Dev nD → PrngReg)

theorem origin_eq : (![0, 0] : Fin 2 → Nat) = fun _ => 0 := funext fun a => by fin_cases a <;> rfl

/-- The printed index maps over the 32 grid points: the message, LLR and output windows sit at row block `t`, column
    block 0; the two weight windows at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The layer function of the arrays as the region finds them. -/
abbrev layerOf (c : Dev nD) : S16384x2048.Idx → EReal :=
  oddLayer (V m c main_arg0) (V m c main_arg1) (V m c main_v12) (V m c main_v14)

/-- What point `t` writes back is block `t` of the layer function. -/
theorem flushed_eq (c : Dev nD) (t : Fin cfg0.N) :
    (dats m 0 c).flushed 4 t = ((cfg0.win 4).blk t).view.read (Elt Ideal) (layerOf m c) := by
  rw [Value.flushed4]
  unfold out0_4
  rw [View.canon_unit_zero origin_eq]
  simp only [View.ld_unit_zero (S := S512x2048) origin_eq, View.ld_unit_zero (S := S512x512) origin_eq, View.ld_unit_zero (S := S2048x2048) origin_eq]
  rw [Payload.stored_eq]
  obtain ⟨e00, e01, e10, e11, e20, e21, e30, e31, e40, e41⟩ := index_maps t
  funext j
  show oddBlock (iblk m c 0 t) (iblk m c 1 t) (iblk m c 2 t) (iblk m c 3 t) j = layerOf m c (((cfg0.win 4).blk t).view.emb j)
  have hj0 : (j 0).val < 512 := (j 0).isLt
  have hj1 : (j 1).val < 2048 := (j 1).isLt
  refine oddBlock_eq _ _ _ _ _ _ _ _ j _ (fun k => ?_) (fun k => ?_) (fun k => ?_) (fun k => ?_)
  · show V m c main_arg0 (((cfg0.win 0).blk t).view.emb (bmsgAt j k)) = V m c main_arg0 (msgAt (((cfg0.win 4).blk t).view.emb j) k)
    refine congrArg (V m c main_arg0) (funext fun a => Fin.ext ?_)
    match a with
    | ⟨0, _⟩ => show win0_0.index t (0 : Fin 2) * 512 + 1 * (j 0).val = win0_4.index t (0 : Fin 2) * 512 + 1 * (j 0).val; omega
    | ⟨1, _⟩ => show win0_0.index t (1 : Fin 2) * 2048 + 1 * k.val = k.val; omega
  · show V m c main_arg1 (((cfg0.win 1).blk t).view.emb (bllrAt j k)) = V m c main_arg1 (llrAt (((cfg0.win 4).blk t).view.emb j) k)
    refine congrArg (V m c main_arg1) (funext fun a => Fin.ext ?_)
    match a with
    | ⟨0, _⟩ => show win0_1.index t (0 : Fin 2) * 512 + 1 * (j 0).val = win0_4.index t (0 : Fin 2) * 512 + 1 * (j 0).val; omega
    | ⟨1, _⟩ => show win0_1.index t (1 : Fin 2) * 512 + 1 * k.val = k.val; omega
  · show V m c main_v12 (((cfg0.win 2).blk t).view.emb (bmaskAt j k)) = V m c main_v12 (maskAt (((cfg0.win 4).blk t).view.emb j) k)
    refine congrArg (V m c main_v12) (funext fun a => Fin.ext ?_)
    match a with
    | ⟨0, _⟩ => show win0_2.index t (0 : Fin 2) * 2048 + 1 * k.val = k.val; omega
    | ⟨1, _⟩ => show win0_2.index t (1 : Fin 2) * 2048 + 1 * (j 1).val = win0_4.index t (1 : Fin 2) * 2048 + 1 * (j 1).val; omega
  · show V m c main_v14 (((cfg0.win 3).blk t).view.emb (bskipAt j k)) = V m c main_v14 (skipAt (((cfg0.win 4).blk t).view.emb j) k)
    refine congrArg (V m c main_v14) (funext fun a => Fin.ext ?_)
    match a with
    | ⟨0, _⟩ => show win0_3.index t (0 : Fin 2) * 512 + 1 * k.val = k.val; omega
    | ⟨1, _⟩ => show win0_3.index t (1 : Fin 2) * 2048 + 1 * (j 1).val = win0_4.index t (1 : Fin 2) * 2048 + 1 * (j 1).val; omega

/-- An index of the output array is in point `t`'s block iff each coordinate is in the block's range on its axis. -/
theorem mem_block (t : Fin cfg0.N) (i : S16384x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v15).slice (win0_4.rect t)).set ↔ _
  rw [View.set_slice_whole, Rect.mem_set_unit]
  exact Iff.rfl

/-- Every index of the output array lies in the block of the point its row falls in. -/
theorem covered (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  have hN : cfg0.N = 32 := N_0
  let t : Fin cfg0.N := ⟨(i 0).val / 512, by rw [hN]; omega⟩
  obtain ⟨-, -, -, -, -, -, -, -, e40, e41⟩ := index_maps t
  have ht : t.val = (i 0).val / 512 := rfl
  refine ⟨t, flush0_4 t, ?_⟩
  rw [mem_block]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- The output array after the run is the layer function of the arrays as the region finds them. -/
theorem final (c : Dev nD) : (dats m 0 c).arrAt 4 cfg0.N = layerOf m c :=
  (dats m 0 c).arrAt_eq_of_cover 4 (layerOf m c) (fun t _ => flushed_eq m c t) covered

/-- The run, with the result named: the layer function of the arrays as the region finds them; the arguments unchanged. -/
theorem run : θ_run defs (onTc (τ := τ) (main (F := Ideal))) ⟨m, fun _ => 0, ρ⟩ fun r => ∀ c : Dev nD,
      r.2.mem ((c : Thread nD τ).loc main_v15) = layerOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.LayerValue

end
-- ==== Proof.Weights.lean ====
/-
  The two weight arrays the region finds in HBM, as functions of the arguments.

  Before the region the host forms the gated edge weights — (connectivity mask · learned weight) · gate, the gate of
  source edge `k` being 1 or 0 as `u[k] < 1 / (1 + exp (-logit[k]))` — and the skip weights, connectivity mask ·
  learned weight, and narrows both to bf16. On the extended reals the narrowing is the identity, so the region finds
  exactly these two products.
-/
import proofs.«428126_j66443144069556_3_alg».proof.Proof.Gen.KernelIdeal.Frame
import Idealize.ShloMosaic.Lib.StableHlo.Run
import Idealize.ShloMosaic.PureOps.Ideal

noncomputable section

namespace Cert.KernelIdeal.Weights

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The gated edge weights: (mask · weight) · gate, the gate broadcast along the target-edge axis. -/
def edgeWeights (u : FVec Ideal S2048 .f32) (w : FVec Ideal S2048x2048 .f32) (logits : FVec Ideal S2048 .f32)
    (mask : FVec Ideal S2048x2048 .f32) : FVec Ideal S2048x2048 .f32 :=
  mulf (mulf mask w) (broadcastInDim S2048x2048 ![0, 1] bcast_S2048x1_S2048x2048_0_1 (broadcastInDim S2048x1 ![0] bcast_S2048_S2048x1_0
    (uitofp .f32 (cmpf .olt u (Host.divf (broadcastInDim S2048 ![] bcast_S_S2048 (constant (F := Ideal) S_ .f32 0x3F800000#32))
      (addf (broadcastInDim S2048 ![] bcast_S_S2048 (constant (F := Ideal) S_ .f32 0x3F800000#32)) (Host.exp (Host.negf logits))))))))

/-- The skip weights: mask · weight. -/
def skipWeights (w : FVec Ideal S512x2048 .f32) (mask : FVec Ideal S512x2048 .f32) : FVec Ideal S512x2048 .f32 :=
  mulf mask w

/-- The edge-weight array as the region finds it. -/
theorem found_edge (c : Dev nD) :
    (V m c main_v12 : S2048x2048.Idx → EReal)
      = edgeWeights (m ((c : Thread nD τ).loc main_arg2)) (m ((c : Thread nD τ).loc main_arg3))
          (m ((c : Thread nD τ).loc main_arg5)) (m ((c : Thread nD τ).loc main_arg6)) := by
  dsimp only [Gen.V, Gen.hostOps0]
  after_results
  rfl

/-- The skip-weight array as the region finds it. -/
theorem found_skip (c : Dev nD) :
    (V m c main_v14 : S512x2048.Idx → EReal)
      = skipWeights (m ((c : Thread nD τ).loc main_arg4)) (m ((c : Thread nD τ).loc main_arg7)) := by
  dsimp only [Gen.V, Gen.hostOps0]
  after_results
  rfl

end Cert.KernelIdeal.Weights

end
-- ==== Proof.RefValue.lean ====
/-
  The reference, read at an index: its last stage is the layer function `oddLayer` of the messages, the LLRs, and its
  own two weight stages — the gated edge weights `(mask · w) · gate` (stage 11) and the skip weights
  `skipmask · w` (stage 13). The two host products are the sums over the contracted axis, the clamp is
  `min (10, max (-10, ·))`, and the host's tanh is the extended-real tanh: after the stages are read one by one the
  two sides are the same term.
-/
import proofs.«428126_j66443144069556_3_alg».proof.Proof.Gen.ReferenceIdeal.Read
import proofs.«428126_j66443144069556_3_alg».proof.Proof.Spec

noncomputable section

namespace Cert.ReferenceIdeal.RefValue

open Cert.ReferenceIdeal Cert.ReferenceIdeal.Read Idealize.ShloMosaic Cert.OddLayer

/-- The reference's result, as a function of its eight arguments, is `oddLayer` of the messages, the LLRs and the two
    weight stages. -/
theorem result_eq (x0 : (⟨S16384x2048, .f32⟩ : BufTy).Contents (Elt Ideal)) (x1 : (⟨S16384x512, .f32⟩ : BufTy).Contents (Elt Ideal))
    (x2 : (⟨S2048, .f32⟩ : BufTy).Contents (Elt Ideal)) (x3 : (⟨S2048x2048, .f32⟩ : BufTy).Contents (Elt Ideal))
    (x4 : (⟨S512x2048, .f32⟩ : BufTy).Contents (Elt Ideal)) (x5 : (⟨S2048, .f32⟩ : BufTy).Contents (Elt Ideal))
    (x6 : (⟨S2048x2048, .f32⟩ : BufTy).Contents (Elt Ideal)) (x7 : (⟨S512x2048, .f32⟩ : BufTy).Contents (Elt Ideal)) :
    val_main_v19 (F := Ideal) x0 x1 x2 x3 x4 x5 x6 x7
      = oddLayer x0 x1 (val_main_v11 (F := Ideal) x2 x3 x5 x6) (val_main_v13 (F := Ideal) x4 x7) := by
  funext i
  rw [val_main_v19_apply, val_main_v18_apply, val_main_v17_apply, val_main_cst_3_apply, val_main_v16_apply,
    val_main_call0_v4_apply, val_main_call0_v3_apply, val_main_cst_2_apply, val_main_call0_v2_apply,
    val_main_call0_v1_apply, val_main_call0_v0_apply, val_main_cst_1_apply, val_main_v15_apply,
    val_main_v12_apply, val_main_v14_apply]
  rfl

end Cert.ReferenceIdeal.RefValue

end
-- ==== Proof.lean ====
/-
  A message-passing layer of a neural belief-propagation decoder, as a tiled kernel against its plain reference.

  Both programs compute, for batch row `b` and edge `e`,
      out[b, e] = tanh (1/2 · min (10, max (-10,  Σ_k x[b, k] · M[k, e]  +  Σ_v llr[b, v] · S[v, e])))
  with `M = (edge mask · edge weight) · gate` (the gate of source edge `k` is 1 or 0 as `u[k] < sigmoid (logit[k])`)
  and `S = skip mask · skip weight`, both formed by the same host operations in both programs.

  The kernel walks 32 blocks of 512 batch rows; at each it narrows the rows to bf16, multiplies them into zero
  accumulators against the whole (bf16-narrowed) `M` and `S`, adds, clamps, halves and takes tanh. On the extended
  reals a change of float format is the identity and a product into the zero accumulator is the plain sum, so each
  block it writes is that block of rows of the formula above, and the 32 blocks tile the output. The reference's two
  host products are the same sums, its clamp the same `min`/`max` with the same literals, its tanh the same function.
  No law beyond reading both sides index by index is needed, so the finiteness of the inputs is never used.

  The modules: `Spec` (the formula, on whole arrays and on one block of rows), `Payload` (the body's stored value is
  the block formula), `LayerValue` (blocks to the whole output array, and the kernel's run with its result named),
  `Weights` (the two weight arrays the region finds, as functions of the arguments), `RefValue` (the reference's last
  stage is the formula). The frames and the reference's run are the generated ones; the idealized kernel is the kernel's own text read on the
  extended reals, so there is nothing to preserve.
-/
import proofs.«428126_j66443144069556_3_alg».proof.Defs
import proofs.«428126_j66443144069556_3_alg».proof.Proof.Gen.Kernel
import proofs.«428126_j66443144069556_3_alg».proof.Proof.Gen.Kernel.Skeleton
import proofs.«428126_j66443144069556_3_alg».proof.Proof.Gen.Kernel.Launch
import proofs.«428126_j66443144069556_3_alg».proof.Proof.Gen.Kernel.Points
import proofs.«428126_j66443144069556_3_alg».proof.Proof.Gen.Kernel.Frame
import proofs.«428126_j66443144069556_3_alg».proof.Proof.Gen.KernelIdeal
import proofs.«428126_j66443144069556_3_alg».proof.Proof.Gen.KernelIdeal.Skeleton
import proofs.«428126_j66443144069556_3_alg».proof.Proof.Gen.KernelIdeal.Launch
import proofs.«428126_j66443144069556_3_alg».proof.Proof.Gen.KernelIdeal.Points
import proofs.«428126_j66443144069556_3_alg».proof.Proof.Gen.KernelIdeal.Frame
import proofs.«428126_j66443144069556_3_alg».proof.Proof.Gen.ReferenceIdeal
import proofs.«428126_j66443144069556_3_alg».proof.Proof.Gen.Pre_finite_inputs
import proofs.«428126_j66443144069556_3_alg».proof.Proof.Gen.KernelIdeal.Value
import proofs.«428126_j66443144069556_3_alg».proof.Proof.Gen.ReferenceIdeal.Run
import proofs.«428126_j66443144069556_3_alg».proof.Proof.Gen.ReferenceIdeal.Read
import proofs.«428126_j66443144069556_3_alg».proof.Proof.LayerValue
import proofs.«428126_j66443144069556_3_alg».proof.Proof.Weights
import proofs.«428126_j66443144069556_3_alg».proof.Proof.RefValue
import Idealize.ShloMosaic.Adequacy
import Idealize.ShloMosaic.Init

noncomputable section

namespace Cert.Proof

open Idealize.ShloMosaic Idealize.ShloMosaic.TcCoe Idealize.SL.Sem

/-! ## The weights are the same on both sides -/

/-- The gated edge weights the kernel's region finds are the reference's stage 11: the same host operations of the
    same four arguments. -/
theorem edge_weights_eq (x2 : FVec Ideal Cert.KernelIdeal.S2048 .f32) (x3 : FVec Ideal Cert.KernelIdeal.S2048x2048 .f32)
    (x5 : FVec Ideal Cert.KernelIdeal.S2048 .f32) (x6 : FVec Ideal Cert.KernelIdeal.S2048x2048 .f32) :
    Cert.KernelIdeal.Weights.edgeWeights x2 x3 x5 x6 = Cert.ReferenceIdeal.Read.val_main_v11 (F := Ideal) x2 x3 x5 x6 := rfl

/-- The skip weights the kernel's region finds are the reference's stage 13. -/
theorem skip_weights_eq (x4 x7 : FVec Ideal Cert.KernelIdeal.S512x2048 .f32) :
    Cert.KernelIdeal.Weights.skipWeights x4 x7 = Cert.ReferenceIdeal.Read.val_main_v13 (F := Ideal) x4 x7 := rfl

/-! ## The claims -/

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel's output array ends at the layer formula of the messages, the LLRs and the weights its region finds;
    the reference's result is the layer formula of the messages, the LLRs and its weight stages; the arguments agree
    and the weights are the same host terms of them. -/
theorem algebraic : Cert.algebraic_KernelIdeal_ReferenceIdeal := by
  intro m ρ m' ρ' _ hagree
  refine ⟨fun c => Cert.KernelIdeal.LayerValue.layerOf m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v19_eq, Cert.ReferenceIdeal.RefValue.result_eq, h0, h1, h2, h3, h4, h5, h6, h7,
    ← edge_weights_eq, ← skip_weights_eq, ← Cert.KernelIdeal.Weights.found_edge m c, ← Cert.KernelIdeal.Weights.found_skip m c]
  show _ = Cert.OddLayer.oddLayer (Cert.KernelIdeal.Gen.V m c Cert.KernelIdeal.main_arg0) (Cert.KernelIdeal.Gen.V m c Cert.KernelIdeal.main_arg1) _ _
  rw [Cert.KernelIdeal.Gen.V_main_arg0, Cert.KernelIdeal.Gen.V_main_arg1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
